-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S10000x128 : Shape := ⟨2, ![10000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 66
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Dense.lean ====
/-
  The first kernel's output array as ONE function of the arrays it finds at its entry, on the extended reals.

  The kernel walks the 100000 rows of `x` in 10 blocks of 10000 rows; at block t it loads rows
  [10000 t, 10000 t + 10000) of `x` and the whole 128 × 128 matrix `W`, and stores their matrix product taken into a
  zero accumulator (the two narrowings to a shorter float format before the product are the identity on the extended
  reals). Every entry of the output lies in exactly one block, so after the last block the whole output array is

      xw[r, j] = Σ_k x[r, k] · W[k, j].
-/
import proofs.«119676_j48060684042940_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

/-- The matrix product on the extended reals: entry (r, j) is `Σ_k x[r, k] · W[k, j]`. -/
abbrev product (x : S100000x128.Idx → Elt Ideal .f32) (w : S128x128.Idx → Elt Ideal .f32) : S100000x128.Idx → Elt Ideal .f32 :=
  fun i => ∑ k : Fin 128, x (ix2 (⟨(i 0).val, (i 0).isLt⟩ : Fin 100000) k) * w (ix2 k (⟨(i 1).val, (i 1).isLt⟩ : Fin 128))

/-! The product's operand indices, axis by axis: the left operand is read at (row of the result, contracted index),
    the right at (contracted index, column of the result). -/

theorem lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_contracted (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
theorem rhs_contracted (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
theorem rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- One block's stored value at row p, column q of the block: `Σ_k x[p, k] · W[k, q]`. Into the zero accumulator the
    product is the plain sum, and a narrowing of the float format is the identity on the extended reals. -/
theorem pay_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  show FloatOps.matmul dot_S10000x128_S128x128_S10000x128_1_0_0_1_n_n none (truncf (F := Ideal) .bf16 x0 bitsLt_bf16_f32) (truncf (F := Ideal) .bf16 x1 bitsLt_bf16_f32)
      (constant (F := Ideal) S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_contracted _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_contracted _ _).trans hk
    | ⟨1, _⟩ => exact rhs_col _ _)
  rw [el, er]
  rfl

section Region

variable (V : (c : Dev nD) → (b : Ref sig .tc) → Buf (Elt Ideal) ((c : Thread nD τ).loc b))

theorem offsets_zero : (![0, 0] : Fin 2 → Nat) = fun _ => 0 := funext fun a => by fin_cases a <;> rfl

/-- Where the blocks sit, decided over the ten grid points: the block of `x` moves with the output block down the
    rows, the block of `W` never moves, and the output's row-block number is at most 9. -/
theorem block_places : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's output block. -/
theorem block_onto : ∀ q0 : Fin 10, ∃ t : Fin cfg0.N, win0_2.index t = ![q0.val, 0] :=
  (by decide +kernel : ∀ q0 : Fin 10, ∃ t : Fin grid0.N, win0_2.index t = ![q0.val, 0])

/-- The block of `x` at point t, typed by its literal shape. -/
abbrev xblk (c : Dev nD) (t : Fin cfg0.N) : Vec Ideal S10000x128 .f32 := iblk0 V c 0 t
/-- The matrix `W` as the kernel stages it, typed by its literal shape. -/
abbrev wblk (c : Dev nD) (t : Fin cfg0.N) : Vec Ideal S128x128 .f32 := iblk0 V c 1 t

/-- What point t writes back is block t of the product of the arrays at the region's entry. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x128) offsets_zero]
  obtain ⟨e0, e1, e2, e3, e4, e5⟩ := block_places t
  funext j
  obtain ⟨p, q, rfl⟩ : ∃ (p : Fin 10000) (q : Fin 128), j = ix2 p q := ⟨j 0, j 1, eq_ix2 j⟩
  show k0_pay1 (F := Ideal) (xblk V c t) (wblk V c t) (ix2 p q)
    = product (V c main_arg0) (V c main_arg2) (((cfg0.win 2).blk t).view.emb (ix2 p q))
  refine (pay_apply (xblk V c t) (wblk V c t) p q).trans ?_
  refine Finset.sum_congr rfl fun k _ => ?_
  have hx : xblk V c t (ix2 p k)
      = V c main_arg0 (ix2 (⟨((((cfg0.win 2).blk t).view.emb (ix2 p q)) 0).val, ((((cfg0.win 2).blk t).view.emb (ix2 p q)) 0).isLt⟩ : Fin 100000) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hw : wblk V c t (ix2 k q)
      = V c main_arg2 (ix2 k (⟨((((cfg0.win 2).blk t).view.emb (ix2 p q)) 1).val, ((((cfg0.win 2).blk t).view.emb (ix2 p q)) 1).isLt⟩ : Fin 128)) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the array is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Every entry of the output array lies in the block of the point that owns its row: row r is in block r / 10000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the last point: the product of the arrays at the region's entry. -/
theorem final (c : Dev nD) : (dat0 V c).arrAt 2 cfg0.N = product (V c main_arg0) (V c main_arg2) :=
  (dat0 V c).arrAt_eq_of_cover 2 (product (V c main_arg0) (V c main_arg2)) (fun t _ => flushed_eq V c t) covered

end Region

end Cert.KernelIdeal.Dense

end
-- ==== Proof.BiasRelu.lean ====
/-
  The second kernel's output array as ONE function of the arrays it finds at its entry.

  The kernel walks the 100000 rows in 10 blocks of 10000 rows; at block t it loads rows [10000 t, 10000 t + 10000) of
  the summed messages `s` and the one bias row `b`, and stores `max(s + b, 0)` entry by entry. Every entry of the
  output lies in exactly one block, so after the last block the whole output array is

      out[r, j] = max(s[r, j] + b[0, j], 0).
-/
import proofs.«119676_j48060684042940_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- The bias added to every row, then the positive part: entry (r, j) is `max(s[r, j] + b[0, j], 0)`. -/
abbrev layer (s : S100000x128.Idx → Elt F .f32) (b : S1x128.Idx → Elt F .f32) : S100000x128.Idx → Elt F .f32 :=
  fun i => FloatOps.maximumf (FloatOps.addf (s i) (b (ix2 (0 : Fin 1) (⟨(i 1).val, (i 1).isLt⟩ : Fin 128)))) (Scalar.ofBits .f32 0x00000000#32)

/-- One block's stored value at row p, column q of the block: `max(x[p, q] + b[0, q], 0)`. The two casts are to the
    operand's own shape, and the bias row is repeated down the block. -/
theorem pay_apply (x0 : Vec F S10000x128 .f32) (x1 : Vec F S1x128 .f32) (p : Fin 10000) (q : Fin 128) :
    k1_pay1 x0 x1 (ix2 p q)
      = FloatOps.maximumf (FloatOps.addf (x0 (ix2 p q)) (x1 (ix2 (0 : Fin 1) q))) (Scalar.ofBits .f32 0x00000000#32) := by
  unfold k1_pay1
  show FloatOps.maximumf (FloatOps.addf (shapeCast S10000x128 x0 shapeCasts_S10000x128_S10000x128 (ix2 p q))
      (broadcastTo S10000x128 (shapeCast S1x128 x1 shapeCasts_S1x128_S1x128) broadcasts_S1x128_S10000x128 (ix2 p q)))
    (Scalar.ofBits .f32 0x00000000#32) = _
  rw [shapeCast_self x0, shapeCast_self x1]
  exact congrArg (fun z => FloatOps.maximumf (FloatOps.addf (x0 (ix2 p q)) z) (Scalar.ofBits .f32 0x00000000#32))
    (broadcastTo_1b_ab_apply x1 broadcasts_S1x128_S10000x128 p q)

section Region

variable (V : (c : Dev nD) → (b : Ref sig .tc) → Buf (Elt F) ((c : Thread nD τ).loc b))

theorem offsets_zero : (![0, 0] : Fin 2 → Nat) = fun _ => 0 := funext fun a => by fin_cases a <;> rfl

/-- Where the blocks sit, decided over the ten grid points: the input block of the summed messages moves with the
    output block down the rows, the bias block never moves, and the output's row-block number is at most 9. -/
theorem block_places : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some grid point's output block. -/
theorem block_onto : ∀ q0 : Fin 10, ∃ t : Fin cfg1.N, win1_2.index t = ![q0.val, 0] :=
  (by decide +kernel : ∀ q0 : Fin 10, ∃ t : Fin grid1.N, win1_2.index t = ![q0.val, 0])

/-- The block of the summed messages at point t, typed by its literal shape. -/
abbrev sblk (c : Dev nD) (t : Fin cfg1.N) : Vec F S10000x128 .f32 := iblk1 V c 0 t
/-- The bias row as the kernel stages it, typed by its literal shape. -/
abbrev bblk (c : Dev nD) (t : Fin cfg1.N) : Vec F S1x128 .f32 := iblk1 V c 1 t

/-- What point t writes back is block t of `layer` of the arrays at the region's entry. -/
theorem flushed_eq (c : Dev nD) (t : Fin cfg1.N) :
    (dat1 V c).flushed 2 t = ((cfg1.win 2).blk t).view.read (Elt F) (layer (V c main_v45) (V c main_v46)) := by
  show (cfg1.win 2).cut (grid1.coords t) ((dat1 V c).after 2 t) = _
  rw [after1_2]
  unfold out1_2
  rw [View.canon_unit_zero offsets_zero]
  simp only [View.ld_unit_zero (S := S10000x128) offsets_zero, View.ld_unit_zero (S := S1x128) offsets_zero]
  obtain ⟨e0, e1, e2, e3, e4, e5⟩ := block_places t
  funext j
  obtain ⟨p, q, rfl⟩ : ∃ (p : Fin 10000) (q : Fin 128), j = ix2 p q := ⟨j 0, j 1, eq_ix2 j⟩
  show k1_pay1 (sblk V c t) (bblk V c t) (ix2 p q) = layer (V c main_v45) (V c main_v46) (((cfg1.win 2).blk t).view.emb (ix2 p q))
  refine (pay_apply (sblk V c t) (bblk V c t) p q).trans ?_
  have hs : sblk V c t (ix2 p q) = V c main_v45 (((cfg1.win 2).blk t).view.emb (ix2 p q)) := by
    show V c main_v45 (((cfg1.win 0).blk t).view.emb (ix2 p q)) = V c main_v45 (((cfg1.win 2).blk t).view.emb (ix2 p q))
    refine congrArg (V c main_v45) (funext fun a => Fin.ext ?_)
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have hb : bblk V c t (ix2 (0 : Fin 1) q)
      = V c main_v46 (ix2 (0 : Fin 1) (⟨((((cfg1.win 2).blk t).view.emb (ix2 p q)) 1).val, ((((cfg1.win 2).blk t).view.emb (ix2 p q)) 1).isLt⟩ : Fin 128)) := by
    show V c main_v46 (((cfg1.win 1).blk t).view.emb (ix2 (0 : Fin 1) q)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hs, hb]

/-- An index of the array is in point t's block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Every entry of the output array lies in the block of the point that owns its row: row r is in block r / 10000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the last point: `layer` of the arrays at the region's entry. -/
theorem final (c : Dev nD) : (dat1 V c).arrAt 2 cfg1.N = layer (V c main_v45) (V c main_v46) :=
  (dat1 V c).arrAt_eq_of_cover 2 (layer (V c main_v45) (V c main_v46)) (fun t _ => flushed_eq V c t) covered

end Region

end Cert.KernelIdeal.BiasRelu

end
-- ==== Proof.Propagate.lean ====
/-
  The graph-convolution propagation both programs apply between the dense transform and the output layer, as ONE
  function of the transformed features `xw` and the edge list `e`, in named stages:

    row = e[0] ++ (0, 1, …, n-1),  col = e[1] ++ (0, 1, …, n-1)      -- every node gets a self loop
    deg[v] = Σ_{j : col[j] = v} 1                                     -- in-degree, the self loop counted
    dis[v] = deg[v]^(-1/2) if deg[v] > 0, else 0
    w[j]   = dis[row[j]] · dis[col[j]]                                -- symmetric normalization of edge j
    msg[j] = xw[row[j]] · w[j]
    out[v] = Σ_{j : col[j] = v} msg[j]

  and the output layer `max(out + b, 0)`. The certificate never opens these stages: the kernel's program and the
  reference apply the same operations, so each side's result is this function of that side's `xw`, and the two
  `xw` are proved equal. (A node index below zero is counted from the end before a gather, as the programs do.)
-/
import proofs.«119676_j48060684042940_1_alg».proof.Proof.Gen.ReferenceIdeal

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- Edge sources, one self loop per node appended: row 0 of the edge list, then 0, 1, …, n-1. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Edge targets, one self loop per node appended: row 1 of the edge list, then 0, 1, …, n-1. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The degree of each node: one unit added at the target of every edge. -/
def degree (col : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 col) (broadcastInDim S1700000 ![] bcast_S_S1700000 (constant S_ .f32 0x3F800000#32))

/-- `deg^(-1/2)` where the degree is positive (the root taken of `max(deg, 1)`), and 0 elsewhere. -/
def invSqrtDegree (deg : (⟨S100000, .f32⟩ : BufTy).Contents (Elt F)) : (⟨S100000, .f32⟩ : BufTy).Contents (Elt F) :=
  select (cmpf (F := F) .ogt deg (broadcastInDim S100000 ![] bcast_S_S100000 (constant S_ .f32 0x00000000#32))) (Host.rsqrt (maximumf deg (broadcastInDim S100000 ![] bcast_S_S100000 (constant S_ .f32 0x3F800000#32)))) (broadcastInDim S100000 ![] bcast_S_S100000 (id (constant S_ .f32 0x00000000#32)))

/-- Node indices as a gather takes them: an index below zero counted from the end, the vector as a column. -/
def asStart (ix : (⟨S1700000, .i32⟩ : BufTy).Contents (Elt F)) : (⟨S1700000x1, .i32⟩ : BufTy).Contents (Elt F) :=
  broadcastInDim S1700000x1 ![0] bcast_S1700000_S1700000x1_0 (select (cmpi .slt ix (broadcastInDim S1700000 ![] bcast_S_S1700000 (constantI S_ 32 0#32))) (addi ix (broadcastInDim S1700000 ![] bcast_S_S1700000 (constantI S_ 32 100000#32))) ix)

/-- The weight of each edge: `dis[source] · dis[target]`. -/
def edgeWeight (dis : (⟨S100000, .f32⟩ : BufTy).Contents (Elt F)) (row col : (⟨S1700000, .i32⟩ : BufTy).Contents (Elt F)) : (⟨S1700000, .f32⟩ : BufTy).Contents (Elt F) :=
  mulf (Host.gather gather_S100000_S1700000x1_S1700000_n_0_n_n_0_1_1 dis (asStart row)) (Host.gather gather_S100000_S1700000x1_S1700000_n_0_n_n_0_1_1 dis (asStart col))

/-- The message of each edge: its source's feature row scaled by the edge's weight. -/
def messages (xw : (⟨S100000x128, .f32⟩ : BufTy).Contents (Elt F)) (row : (⟨S1700000, .i32⟩ : BufTy).Contents (Elt F)) (w : (⟨S1700000, .f32⟩ : BufTy).Contents (Elt F)) : (⟨S1700000x128, .f32⟩ : BufTy).Contents (Elt F) :=
  mulf (Host.gather gather_S100000x128_S1700000x1_S1700000x128_1_0_n_n_0_1_1128 xw (asStart row)) (broadcastInDim S1700000x128 ![0, 1] bcast_S1700000x1_S1700000x128_0_1 (broadcastInDim S1700000x1 ![0] bcast_S1700000_S1700000x1_0 w))

/-- Each node's sum of the messages of the edges that end at it. -/
def aggregate (col : (⟨S1700000, .i32⟩ : BufTy).Contents (Elt F)) (msgs : (⟨S1700000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 col) msgs

/-- The propagation: normalized neighbourhood sums of the transformed features. -/
def propagate (xw : (⟨S100000x128, .f32⟩ : BufTy).Contents (Elt F)) (e : (⟨S2x1600000, .i32⟩ : BufTy).Contents (Elt F)) : (⟨S100000x128, .f32⟩ : BufTy).Contents (Elt F) :=
  aggregate (targets e) (messages xw (sources e) (edgeWeight (invSqrtDegree (degree (targets e))) (sources e) (targets e)))

/-- The output layer: the bias added to every row of the propagated features, then the positive part, `max(s + b, 0)`. -/
def outLayer (s : (⟨S100000x128, .f32⟩ : BufTy).Contents (Elt F)) (b : (⟨S128, .f32⟩ : BufTy).Contents (Elt F)) : (⟨S100000x128, .f32⟩ : BufTy).Contents (Elt F) :=
  maximumf (addf s (broadcastInDim S100000x128 ![0, 1] bcast_S1x128_S100000x128_0_1 (broadcastInDim S1x128 ![1] bcast_S128_S1x128_1 b))) (broadcastInDim S100000x128 ![] bcast_S_S100000x128 (constant S_ .f32 0x00000000#32))

end Cert.Gcn

end
-- ==== Proof.HostStretch.lean ====
/-
  Between the two kernels the program runs host operations only. Read from what the first kernel leaves:

  * the array the second kernel reads its rows from is the propagation (`Cert.Gcn.propagate`) of the first kernel's
    output array and of the edge list — the same operations, in the same order, as the named stages of that function;
  * the 1 × 128 array it reads the bias from is the bias vector with a unit axis put in front;
  * the edge list and the bias are still what was launched: the first kernel writes neither.
-/
import proofs.«119676_j48060684042940_1_alg».proof.Proof.Gen.KernelIdeal.Frame
import proofs.«119676_j48060684042940_1_alg».proof.Proof.Propagate
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- At the second kernel's entry its first operand holds the propagation of the first kernel's output and the edge list. -/
theorem summed (c : Dev nD) :
    V4 m ρ c main_v45 = Cert.Gcn.propagate (V1 m ρ c main_v0) (V1 m ρ c main_arg1) := by
  show StableHlo.after hostOps1_2 (StableHlo.after hostOps1_1 (StableHlo.after hostOps1 (W1 m ρ c))) (Proc.devRef .tc main_v45) = _
  after_results_simp
  rfl

set_option maxHeartbeats 4000000 in
/-- At the second kernel's entry its second operand holds the bias vector as a 1 × 128 row. -/
theorem bias_row (c : Dev nD) :
    V4 m ρ c main_v46 = shapeCast S1x128 (V1 m ρ c main_arg3) shapeCasts_S128_S1x128 := by
  show StableHlo.after hostOps1_2 (StableHlo.after hostOps1_1 (StableHlo.after hostOps1 (W1 m ρ c))) (Proc.devRef .tc main_v46) = _
  after_results_simp
  rfl

/-- The first kernel leaves the edge list as launched: it is none of that kernel's arrays. -/
theorem edges_kept (c : Dev nD) : V1 m ρ c main_arg1 = m ((c : Thread nD τ).loc main_arg1) :=
  W1_of_ne m ρ c main_arg1 (by decide)

/-- The first kernel leaves the bias as launched: it is none of that kernel's arrays. -/
theorem bias_kept (c : Dev nD) : V1 m ρ c main_arg3 = m ((c : Thread nD τ).loc main_arg3) :=
  W1_of_ne m ρ c main_arg3 (by decide)

end Cert.KernelIdeal.Between

end
-- ==== Proof.KernelValue.lean ====
/-
  The kernel's program's result array, on the extended reals, as one function of the four argument arrays:

      result = max( propagate(x · W, edges) + bias, 0 )

  read off the run segment by segment: the last kernel's output array is `layer` of what it finds at its entry
  (the block-to-array step of that kernel); what it finds is the propagation of the first kernel's output and the bias
  as a row (the host operations between the kernels); and the first kernel's output is the matrix product of `x` and
  `W` as launched (the block-to-array step of the first kernel).
-/
import proofs.«119676_j48060684042940_1_alg».proof.Proof.KernelRun
import proofs.«119676_j48060684042940_1_alg».proof.Proof.Dense
import proofs.«119676_j48060684042940_1_alg».proof.Proof.BiasRelu
import proofs.«119676_j48060684042940_1_alg».proof.Proof.HostStretch

set_option maxRecDepth 16384

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the first kernel leaves in its output array: the matrix product of `x` and `W` as launched. -/
theorem dense_out (c : Dev nD) :
    V1 m ρ c main_v0 = Dense.product (m ((c : Thread nD τ).loc main_arg0)) (m ((c : Thread nD τ).loc main_arg2)) :=
  (W1_arr m ρ c 2).trans (Dense.final (V0 m ρ) c)

/-- The result array after the whole run, as one function of the argument arrays. -/
theorem result (c : Dev nD) :
    W5 m ρ c (Proc.devRef .tc main_v47)
      = BiasRelu.layer
          (Cert.Gcn.propagate (Dense.product (m ((c : Thread nD τ).loc main_arg0)) (m ((c : Thread nD τ).loc main_arg2)))
            (m ((c : Thread nD τ).loc main_arg1)))
          (shapeCast S1x128 (m ((c : Thread nD τ).loc main_arg3)) shapeCasts_S128_S1x128) := by
  refine ((W5_arr m ρ c 2).trans (BiasRelu.final (V4 m ρ) c)).trans ?_
  rw [Between.summed m ρ c, Between.bias_row m ρ c, Between.edges_kept m ρ c, Between.bias_kept m ρ c, dense_out m ρ c]

end Cert.KernelIdeal.KernelValue

end
-- ==== Proof.RefValue.lean ====
/-
  The reference's result in stages. Its run ends with the result array at one long composed term of the argument arrays;
  that term is the output layer of the propagation of the reference's own dense transform `x · W` (the named stages
  unfold to it), and on the extended reals the host's dense transform is the plain sum `Σ_k x[r, k] · W[k, j]`.
-/
import proofs.«119676_j48060684042940_1_alg».proof.Proof.RefRun
import proofs.«119676_j48060684042940_1_alg».proof.Proof.RefRead
import proofs.«119676_j48060684042940_1_alg».proof.Proof.Propagate

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The run's composed result term is `outLayer (propagate (x · W) e) b` of the four argument arrays. -/
theorem result_staged (m : (ℓ : Loc nD τ sig) → Buf (Elt F) ℓ) (c : Dev nD) :
    Cert.ReferenceIdeal.ValueP.res_main_v49 m c
      = Cert.Gcn.outLayer
          (Cert.Gcn.propagate
            (Host.dotGeneral dot_S100000x128_S128x128_S100000x128_1_0_0_1_n_n none (m ((c.tc : Thread nD τ).loc main_arg0)) (m ((c.tc : Thread nD τ).loc main_arg2)))
            (m ((c.tc : Thread nD τ).loc main_arg1)))
          (m ((c.tc : Thread nD τ).loc main_arg3)) := by
  unfold Cert.ReferenceIdeal.ValueP.res_main_v49
  rfl

/-- On the extended reals the host's dense transform at entry (r, j) is `Σ_k x[r, k] · W[k, j]`. -/
theorem dense_apply (x : FVec Ideal S100000x128 .f32) (w : FVec Ideal S128x128 .f32) (i : S100000x128.Idx) :
    Host.dotGeneral (F := Ideal) dot_S100000x128_S128x128_S100000x128_1_0_0_1_n_n none x w i
      = ∑ k : Fin 128, x (Cert.ReferenceIdeal.ReadP.lidx_main_v0 i k) * w (Cert.ReferenceIdeal.ReadP.ridx_main_v0 i k) :=
  Cert.ReferenceIdeal.ReadP.val_main_v0_apply x w i

end Cert.ReferenceIdeal.RefValue

end
-- ==== Proof.Bridge.lean ====
/-
  The two value facts that join the kernel's program to the reference, over arbitrary arrays:

  * the kernel's dense transform (row blocks of a matrix product into a zero accumulator) and the host's
    `dot_general` are the same plain sum `Σ_k x[r, k] · W[k, j]` on the extended reals;
  * the kernel's output layer, which reads the bias as a 1 × 128 row repeated down the rows, and the host's, which
    broadcasts the bias vector twice, are the same `max(s[r, j] + b[j], 0)`.

  Between them both programs apply the same propagation, carried as one function and never opened.
-/
import proofs.«119676_j48060684042940_1_alg».proof.Proof.Dense
import proofs.«119676_j48060684042940_1_alg».proof.Proof.BiasRelu
import proofs.«119676_j48060684042940_1_alg».proof.Proof.RefValue
import Idealize.ShloMosaic.Lib.ValueLayout

set_option maxRecDepth 16384

noncomputable section

namespace Cert.Gcn

open Idealize.ShloMosaic Idealize.ShloMosaic.TcCoe Idealize.SL.Sem
open Idealize.ShloMosaic.ValueIdx

/-- The matrix product read entry by entry is the host's dense transform, on the extended reals. -/
theorem dense_eq (x : FVec Ideal Cert.ReferenceIdeal.S100000x128 .f32) (w : FVec Ideal Cert.ReferenceIdeal.S128x128 .f32) :
    Cert.KernelIdeal.Dense.product x w
      = Host.dotGeneral (F := Ideal) Cert.ReferenceIdeal.dot_S100000x128_S128x128_S100000x128_1_0_0_1_n_n none x w := by
  funext i
  refine (Finset.sum_congr rfl fun k _ => ?_).trans (Cert.ReferenceIdeal.RefValue.dense_apply x w i).symm
  have hl : ix2 (⟨(i 0).val, (i 0).isLt⟩ : Fin 100000) k = Cert.ReferenceIdeal.ReadP.lidx_main_v0 i k :=
    funext fun a => by match a with | ⟨0, _⟩ => rfl | ⟨1, _⟩ => rfl
  have hr : ix2 k (⟨(i 1).val, (i 1).isLt⟩ : Fin 128) = Cert.ReferenceIdeal.ReadP.ridx_main_v0 i k :=
    funext fun a => by match a with | ⟨0, _⟩ => rfl | ⟨1, _⟩ => rfl
  rw [hl, hr]

variable {F : FTy → Type} [FloatOps F]

/-- The output layer over the bias as a 1 × 128 row is the host's output layer over the bias vector. -/
theorem layer_eq (s : Cert.ReferenceIdeal.S100000x128.Idx → Elt F .f32) (b : Cert.ReferenceIdeal.S128.Idx → Elt F .f32) :
    Cert.KernelIdeal.BiasRelu.layer s (shapeCast Cert.KernelIdeal.S1x128 b Cert.KernelIdeal.Gen.shapeCasts_S128_S1x128)
      = outLayer s b := by
  funext i
  have hk : shapeCast Cert.KernelIdeal.S1x128 b Cert.KernelIdeal.Gen.shapeCasts_S128_S1x128 (ix2 (0 : Fin 1) (⟨(i 1).val, (i 1).isLt⟩ : Fin 128))
      = b (ix1 (⟨(i 1).val, (i 1).isLt⟩ : Fin 128)) :=
    shapeCast_a_1a_apply b _ 0 _
  have hh : broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) i
      = b (ix1 (⟨(i 1).val, (i 1).isLt⟩ : Fin 128)) :=
    ((Cert.ReferenceIdeal.ReadP.val_main_v47_apply b i).trans (Cert.ReferenceIdeal.ReadP.val_main_v46_apply b _)).trans
      (congrArg b (funext fun a => by match a with | ⟨0, _⟩ => rfl))
  show FloatOps.maximumf (FloatOps.addf (s i)
        (shapeCast Cert.KernelIdeal.S1x128 b Cert.KernelIdeal.Gen.shapeCasts_S128_S1x128 (ix2 (0 : Fin 1) (⟨(i 1).val, (i 1).isLt⟩ : Fin 128))))
      (Scalar.ofBits .f32 0x00000000#32)
    = FloatOps.maximumf (FloatOps.addf (s i)
        (broadcastInDim Cert.ReferenceIdeal.S100000x128 ![0, 1] Cert.ReferenceIdeal.Gen.bcast_S1x128_S100000x128_0_1
          (broadcastInDim Cert.ReferenceIdeal.S1x128 ![1] Cert.ReferenceIdeal.Gen.bcast_S128_S1x128_1 b) i))
      (FloatOps.ofBits .f32 0x00000000#32)
  rw [hk, hh]

/-- The kernel's program and the reference compute one function of the four arrays, on the extended reals. -/
theorem value_eq (x : FVec Ideal Cert.ReferenceIdeal.S100000x128 .f32) (e : (⟨Cert.ReferenceIdeal.S2x1600000, .i32⟩ : BufTy).Contents (Elt Ideal))
    (w : FVec Ideal Cert.ReferenceIdeal.S128x128 .f32) (b : FVec Ideal Cert.ReferenceIdeal.S128 .f32) :
    Cert.KernelIdeal.BiasRelu.layer (propagate (Cert.KernelIdeal.Dense.product x w) e)
        (shapeCast Cert.KernelIdeal.S1x128 b Cert.KernelIdeal.Gen.shapeCasts_S128_S1x128)
      = outLayer (propagate (Host.dotGeneral (F := Ideal) Cert.ReferenceIdeal.dot_S100000x128_S128x128_S100000x128_1_0_0_1_n_n none x w) e) b :=
  (congrArg (fun z => Cert.KernelIdeal.BiasRelu.layer (F := Ideal) (propagate (F := Ideal) z e)
      (shapeCast Cert.KernelIdeal.S1x128 b Cert.KernelIdeal.Gen.shapeCasts_S128_S1x128)) (dense_eq x w)).trans
    (layer_eq (F := Ideal)
      (propagate (F := Ideal) (Host.dotGeneral (F := Ideal) Cert.ReferenceIdeal.dot_S100000x128_S128x128_S100000x128_1_0_0_1_n_n none x w) e) b)

end Cert.Gcn

end
-- ==== Proof.lean ====
/-
  A graph-convolution layer, `relu(D^(-1/2) (A + I) D^(-1/2) (x · W) + b)`, as a kernel program against its plain
  reference, equal as functions on the extended reals.

  The kernel's program has three parts: a first kernel that computes `x · W` ten row blocks at a time (each block a
  matrix product into a zero accumulator, its operands narrowed to a shorter float format first: the identity on the
  extended reals); host operations that build the self-looped edge list, the degrees, the symmetric normalization,
  the gathered and scaled messages and their sums per target node; and a second kernel that adds the bias row and takes
  the positive part, again ten row blocks at a time. The reference does the same on the host with one `dot_general`.

  The proof reads the kernel program's run segment by segment (Proof/KernelValue.lean): each kernel's output array is
  one whole-array function of what the kernel finds (Proof/Dense.lean, Proof/BiasRelu.lean: every entry lies in exactly
  one row block), and the host operations in between are the propagation function of Proof/Propagate.lean, which the
  reference's result is built from as well (Proof/RefValue.lean). So both results are
  `max(propagate(x · W, edges) + b, 0)`, and what remains (Proof/Bridge.lean) is that the blocked product and the
  host's `dot_general` are the same sum `Σ_k x[r, k] · W[k, j]`, and that the two spellings of the bias row agree.
  No law of the extended reals beyond `0 + s = s` is used, so the finiteness of the inputs is never opened.

  The three frames: the two kernel programs' are the generated frames; the reference's is its run with the result dropped.
  The idealization rewrote nothing, so there is nothing to preserve.
-/
import proofs.«119676_j48060684042940_1_alg».proof.Defs
import proofs.«119676_j48060684042940_1_alg».proof.Proof.Gen.Kernel
import proofs.«119676_j48060684042940_1_alg».proof.Proof.Gen.Kernel.Skeleton
import proofs.«119676_j48060684042940_1_alg».proof.Proof.Gen.Kernel.Launch
import proofs.«119676_j48060684042940_1_alg».proof.Proof.Gen.Kernel.Points
import proofs.«119676_j48060684042940_1_alg».proof.Proof.Gen.Kernel.Frame
import proofs.«119676_j48060684042940_1_alg».proof.Proof.Gen.KernelIdeal
import proofs.«119676_j48060684042940_1_alg».proof.Proof.Gen.KernelIdeal.Skeleton
import proofs.«119676_j48060684042940_1_alg».proof.Proof.Gen.KernelIdeal.Launch
import proofs.«119676_j48060684042940_1_alg».proof.Proof.Gen.KernelIdeal.Points
import proofs.«119676_j48060684042940_1_alg».proof.Proof.Gen.KernelIdeal.Frame
import proofs.«119676_j48060684042940_1_alg».proof.Proof.Gen.ReferenceIdeal
import proofs.«119676_j48060684042940_1_alg».proof.Proof.Gen.Pre_finite_inputs
import proofs.«119676_j48060684042940_1_alg».proof.Proof.RefRun
import proofs.«119676_j48060684042940_1_alg».proof.Proof.KernelValue
import proofs.«119676_j48060684042940_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result array at `max(propagate(x · W, edges) + b, 0)` of arguments that agree. -/
theorem algebraic : Cert.algebraic_KernelIdeal_ReferenceIdeal := by
  intro m ρ m' ρ' _ hagree
  refine ⟨fun c => Cert.KernelIdeal.BiasRelu.layer (F := Ideal)
      (Cert.Gcn.propagate (F := Ideal) (Cert.KernelIdeal.Dense.product (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg1)))
      (shapeCast Cert.KernelIdeal.S1x128 (m ((c.tc : Thread Cert.KernelIdeal.nD Cert.KernelIdeal.τ).loc Cert.KernelIdeal.main_arg3)) Cert.KernelIdeal.Gen.shapeCasts_S128_S1x128), ?_, ?_⟩
  · exact (θ_run Cert.KernelIdeal.defs _ _).mono
      (fun r h c => ⟨(h c).1.trans (Cert.KernelIdeal.KernelValue.result m ρ c), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_staged, (hagree c).1, (hagree c).2.1, (hagree c).2.2.1, (hagree c).2.2.2]
    exact (Cert.Gcn.value_eq _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
